-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg8 : FVec F S128 .f32) (main_v48 : IVec S_ 1) (main_v49 : FVec F S40x128 .f32) (main_v50 : FVec F S40x128 .f32) : IVec S_ 1 :=
  let main_v51 : IVec S40x128 1 := cmpf .olt main_v49 main_v50
  let main_c_19 : IVec S_ 1 := constantI S_ 1 1#1
  let main_v52 : IVec S_ 1 := (fun x v => Host.reduce IntOp.andi x v reducesTo_S40x128_S_d0_1 h_S_) main_v51 main_c_19
  let main_v53 : IVec S_ 1 := andi main_v48 main_v52
  let main_cst_20 : FVec F S_ .f32 := constant S_ .f32 0x00000000#32
  let main_v54 : FVec F S128 .f32 := broadcastInDim S128 ![] bcast_S_S128 main_cst_20
  let main_v55 : IVec S128 1 := cmpf .oge main_arg8 main_v54
  let main_c_21 : IVec S_ 1 := constantI S_ 1 1#1
  let main_v56 : IVec S_ 1 := (fun x v => Host.reduce IntOp.andi x v reducesTo_S128_S_d0 h_S_) main_v55 main_c_21
  let main_v57 : IVec S_ 1 := andi main_v53 main_v56
  main_v57

def fn_part2 {F : FTy → Type} [FloatOps F] (main_arg8 : FVec F S128 .f32) (main_arg9 : FVec F S40x128 .f32) (main_arg10 : FVec F S40 .f32) (main_arg11 : FVec F S40x128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S40x128 .f32 := Host.absf main_arg9
  let main_cst_14 : FVec F S_ .f32 := constant S_ .f32 0x7F800000#32
  let main_v40 : FVec F S40x128 .f32 := broadcastInDim S40x128 ![] bcast_S_S40x128 main_cst_14
  let main_v41 : IVec S40x128 1 := cmpf .olt main_v39 main_v40
  let main_c_15 : IVec S_ 1 := constantI S_ 1 1#1
  let main_v42 : IVec S_ 1 := (fun x v => Host.reduce IntOp.andi x v reducesTo_S40x128_S_d0_1 h_S_) main_v41 main_c_15
  let main_v43 : IVec S_ 1 := andi main_v38 main_v42
  let main_v44 : FVec F S40 .f32 := Host.absf main_arg10
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  let main_v49 : FVec F S40x128 .f32 := Host.absf main_arg11
  let main_cst_18 : FVec F S_ .f32 := constant S_ .f32 0x7F800000#32
  let main_v50 : FVec F S40x128 .f32 := broadcastInDim S40x128 ![] bcast_S_S40x128 main_cst_18
  fn_part3 (F := F) main_arg8 main_v48 main_v49 main_v50

def fn_part1 {F : FTy → Type} [FloatOps F] (main_arg5 : FVec F S128 .f32) (main_arg6 : FVec F S128 .f32) (main_arg7 : FVec F S128 .f32) (main_arg8 : FVec F S128 .f32) (main_arg9 : FVec F S40x128 .f32) (main_arg10 : FVec F S40 .f32) (main_arg11 : FVec F S40x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S128 .f32) (main_arg9 : FVec F S40x128 .f32) (main_arg10 : FVec F S40 .f32) (main_arg11 : FVec F S40x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S5000x128 : Shape := ⟨2, ![5000, 128]⟩
abbrev S128x40 : Shape := ⟨2, ![128, 40]⟩
abbrev S1x40 : Shape := ⟨2, ![1, 40]⟩
abbrev S50000x40 : Shape := ⟨2, ![50000, 40]⟩
abbrev S5000x40 : Shape := ⟨2, ![5000, 40]⟩

abbrev nBuf : Space → Nat
  | .hbm => 77
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S40x128, .f32⟩
  | .hbm, ⟨10, _⟩ => ⟨S40, .f32⟩
  | .hbm, ⟨11, _⟩ => ⟨S40x128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S128, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S128x128, .f32⟩
  | .hbm, ⟨52, _⟩ => ⟨S128x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S50000x128, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x128, .f32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S128x40, .f32⟩
  | .hbm, ⟨74, _⟩ => ⟨S128x40, .f32⟩
  | .hbm, ⟨75, _⟩ => ⟨S1x40, .f32⟩
  | .hbm, ⟨76, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x40, .f32⟩
  | .local _ .vmem, ⟨16, _⟩ => ⟨S128x40, .f32⟩
  | .local _ .vmem, ⟨17, _⟩ => ⟨S1x40, .f32⟩
  | .local _ .vmem, ⟨18, _⟩ => ⟨S5000x40, .f32⟩
  | .local _ .vmem, ⟨19, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_6 : Ref sig .tc := ⟨.hbm, 57, rfl⟩
abbrev main_v37 : Ref sig .tc := ⟨.hbm, 58, rfl⟩
abbrev main_v38 : Ref sig .tc := ⟨.hbm, 59, rfl⟩
abbrev main_c_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S128 : S_.BroadcastsInDim S128 (![] : Fin 0 → Fin S128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S40x128_S128x40_1_0 : S40x128.Transposes [1, 0] S128x40
  shapeCasts_S40_S1x40 : S40.ShapeCasts S1x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x40.size a ≤ S128x40.size a
  hwx1_3 : ∀ i : grid1.Coords, EltTy.bits .f32 = 32 ∨ (Rect.block (s := S128x40) S128x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x40.size a ≤ S1x40.size a
  hwx1_4 : ∀ i : grid1.Coords, EltTy.bits .f32 = 32 ∨ (Rect.block (s := S1x40) S1x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x40.size a ≤ S50000x40.size a
  hwx1_5 : ∀ i : grid1.Coords, EltTy.bits .f32 = 32 ∨ (Rect.block (s := S50000x40) S5000x40.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v35) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v36) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S128x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S5000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S128x40 : Shape := ⟨2, ![128, 40]⟩
abbrev S50000x40 : Shape := ⟨2, ![50000, 40]⟩
abbrev S1x40 : Shape := ⟨2, ![1, 40]⟩

abbrev nBuf : Space → Nat
  | .hbm => 93
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S40x128, .f32⟩
  | .hbm, ⟨10, _⟩ => ⟨S40, .f32⟩
  | .hbm, ⟨11, _⟩ => ⟨S40x128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S128x128, .f32⟩
  | .hbm, ⟨45, _⟩ => ⟨S50000x128, .f32⟩
  | .hbm, ⟨46, _⟩ => ⟨S1x128, .f32⟩
  | .hbm, ⟨47, _⟩ => ⟨S50000x128, .f32⟩
  | .hbm, ⟨48, _⟩ => ⟨S50000x128, .f32⟩
  | .hbm, ⟨49, _⟩ => ⟨S128x128, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S50000x128, .f32⟩
  | .hbm, ⟨54, _⟩ => ⟨S50000x128, .f32⟩
  | .hbm, ⟨55, _⟩ => ⟨S1x128, .f32⟩
  | .hbm, ⟨56, _⟩ => ⟨S50000x128, .f32⟩
  | .hbm, ⟨57, _⟩ => ⟨S50000x128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S128, .f32⟩
  | .hbm, ⟨62, _⟩ => ⟨S128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x128, .f32⟩
  | .hbm, ⟨78, _⟩ => ⟨S_, .f32⟩
  | .hbm, ⟨79, _⟩ => ⟨S50000x128, .f32⟩
  | .hbm, ⟨80, _⟩ => ⟨S800000x1, .i32⟩
  | .hbm, ⟨81, _⟩ => ⟨S50000x128, .f32⟩
  | .hbm, ⟨82, _⟩ => ⟨S50000x1, .f32⟩
  | .hbm, ⟨83, _⟩ => ⟨S50000x128, .f32⟩
  | .hbm, ⟨84, _⟩ => ⟨S50000x128, .f32⟩
  | .hbm, ⟨85, _⟩ => ⟨S128x40, .f32⟩
  | .hbm, ⟨86, _⟩ => ⟨S50000x40, .f32⟩
  | .hbm, ⟨87, _⟩ => ⟨S1x40, .f32⟩
  | .hbm, ⟨88, _⟩ => ⟨S50000x40, .f32⟩
  | .hbm, ⟨89, _⟩ => ⟨S50000x40, .f32⟩
  | .hbm, ⟨90, _⟩ => ⟨S128x40, .f32⟩
  | .hbm, ⟨91, _⟩ => ⟨S50000x40, .f32⟩
  | .hbm, ⟨92, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_7 : Ref sig .tc := ⟨.hbm, 69, rfl⟩
abbrev main_v48 : Ref sig .tc := ⟨.hbm, 70, rfl⟩
abbrev main_v49 : Ref sig .tc := ⟨.hbm, 71, rfl⟩
abbrev main_c_8 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  transposes_S40x128_S128x40_1_0 : S40x128.Transposes [1, 0] S128x40
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.PreFacts.lean ====
/-
  The printed precondition, read back at the extended reals: every entry of the scale, shift and running-mean vectors is
  a real number, and every entry of the running-variance vector is a real number that is not negative.
  The precondition is a conjunction of twelve tests; each test is an "all entries" reduction by `and` of an entrywise
  comparison. Eleven tests say |x| < +∞ entrywise, the twelfth says 0 ≤ x entrywise for the running variance.
-/
import proofs.«137583_j84146999263864_1_alg».proof.Pre_finite_inputs
import proofs.«137583_j84146999263864_1_alg».proof.Proof.Gen.Pre_finite_inputs
import Idealize.ShloMosaic.Lib.ReduceAll
import Idealize.ShloMosaic.Lib.ValueIdx
import Idealize.ShloMosaic.PureOps.Ideal

namespace Cert.PreFacts

open Idealize.ShloMosaic Cert.Pre_finite_inputs

/-- The scalar shape has exactly one index. -/
instance : Subsingleton S_.Idx := ⟨fun a b => funext fun d => d.elim0⟩

/-- The bit pattern of +∞ denotes the top element. -/
theorem ofBits_inf : Ideal.ofBits .f32 0x7F800000#32 = (⊤ : EReal) := by simp [Ideal.ofBits, Ideal.ieee]

/-- The bit pattern of +0 denotes zero. -/
theorem ofBits_zero : Ideal.ofBits .f32 0x00000000#32 = (0 : EReal) := by simp [Ideal.ofBits, Ideal.ieee]

/-- An extended real whose absolute value max x (-x) is strictly below +∞ is a real number:
    at -∞ and at +∞ the absolute value is +∞. -/
theorem real_of_abs_lt_top (x : EReal) (h : Ideal.cmp .olt (max x (-x)) (⊤ : EReal) = 1#1) : ∃ r : ℝ, x = (r : EReal) := by
  unfold Ideal.cmp at h
  induction x using EReal.rec with
  | bot => simp at h
  | coe r => exact ⟨r, rfl⟩
  | top => simp at h

/-- The entrywise test |x| < +∞ against a broadcast +∞, read at one entry. -/
theorem finite_elem {s : Shape} (hb : S_.BroadcastsInDim s (![] : Fin 0 → Fin s.rank)) (a : FVec Ideal s .f32) (i : s.Idx)
    (h : cmpf .olt (Host.absf a) (broadcastInDim s ![] hb (constant S_ .f32 0x7F800000#32)) i = 1#1) :
    ∃ r : ℝ, a i = (r : EReal) := by
  apply real_of_abs_lt_top
  rw [← ofBits_inf]
  exact h

/-- The entrywise test x ≥ 0 against a broadcast zero, read at one entry. -/
theorem nonneg_elem {s : Shape} (hb : S_.BroadcastsInDim s (![] : Fin 0 → Fin s.rank)) (a : FVec Ideal s .f32) (i : s.Idx)
    (h : cmpf .oge a (broadcastInDim s ![] hb (constant S_ .f32 0x00000000#32)) i = 1#1) :
    (0 : EReal) ≤ a i := by
  have h' : Ideal.cmp .oge (a i) (Ideal.ofBits .f32 0x00000000#32) = 1#1 := h
  rw [ofBits_zero] at h'
  unfold Ideal.cmp at h'
  by_cases hc : (0 : EReal) ≤ a i
  · exact hc
  · simp [hc] at h'

/-- A conjunction of two one-bit words that is 1 has both conjuncts 1 (at the one index of a scalar). -/
theorem and_split (x y : IVec S_ 1) (j : S_.Idx) (h : andi x y j = 1#1) : x j = 1#1 ∧ y j = 1#1 :=
  IntOp.andi_eq_one.1 h

theorem decode [Cert.Pre_finite_inputs.Facts] (a0 : FVec Ideal S50000x128 .f32) (a1 : IVec S2x800000 32)
    (a2 : FVec Ideal S128x128 .f32) (a3 : FVec Ideal S128 .f32) (a4 : FVec Ideal S128x128 .f32)
    (a5 a6 a7 a8 : FVec Ideal S128 .f32) (a9 : FVec Ideal S40x128 .f32) (a10 : FVec Ideal S40 .f32)
    (a11 : FVec Ideal S40x128 .f32)
    (h : Cert.Pre_finite_inputs.fn (F := Ideal) a0 a1 a2 a3 a4 a5 a6 a7 a8 a9 a10 a11 = fun _ => 1#1) :
    (∀ j, ∃ r : ℝ, a5 j = (r : EReal)) ∧ (∀ j, ∃ r : ℝ, a6 j = (r : EReal)) ∧ (∀ j, ∃ r : ℝ, a7 j = (r : EReal))
      ∧ (∀ j, ∃ r : ℝ, 0 ≤ r ∧ a8 j = (r : EReal)) := by
  have h0 := congrFun h ValueIdx.ix0
  dsimp only [fn, fn_part1, fn_part2, fn_part3] at h0
  -- the conjunction, outermost conjunct first: the sign test, then the finiteness tests from the last input back
  obtain ⟨h53, h56⟩ := and_split _ _ _ h0
  obtain ⟨h48, h52⟩ := and_split _ _ _ h53
  obtain ⟨h43, h47⟩ := and_split _ _ _ h48
  obtain ⟨h38, h42⟩ := and_split _ _ _ h43
  obtain ⟨h33, h37⟩ := and_split _ _ _ h38
  obtain ⟨h28, h32⟩ := and_split _ _ _ h33
  obtain ⟨h23, h27⟩ := and_split _ _ _ h28
  obtain ⟨h18, h22⟩ := and_split _ _ _ h23
  refine ⟨fun j => ?_, fun j => ?_, fun j => ?_, fun j => ?_⟩
  · exact finite_elem _ a5 j (Host.reduce_andi_all _ _ _ _ _ h22 j)
  · exact finite_elem _ a6 j (Host.reduce_andi_all _ _ _ _ _ h27 j)
  · exact finite_elem _ a7 j (Host.reduce_andi_all _ _ _ _ _ h32 j)
  · obtain ⟨r, hr⟩ := finite_elem _ a8 j (Host.reduce_andi_all _ _ _ _ _ h37 j)
    have hge := nonneg_elem _ a8 j (Host.reduce_andi_all _ _ _ _ _ h56 j)
    rw [hr] at hge
    exact ⟨r, EReal.coe_nonneg.1 hge, hr⟩

end Cert.PreFacts
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.Payloads.lean ====
/-
  What one tile of each dense kernel stores, read at an entry, over the extended reals.

  A tile holds T = 5000 consecutive nodes. The first kernel's stored value at row p and feature q is

      max (sum_k a (p, k) * wl (k, q) + sum_k x (p, k) * wr (k, q) + b (0, q)) 0 * s (0, q) + t (0, q),

  where a is the tile of mean neighbour features, x the tile of the nodes' own features, wl and wr the two weight
  matrices (already transposed, [128, 128]), and b, s, t the bias, scale and shift rows [1, 128]. The second kernel's
  is the same sum of two products and a bias row, with [128, 40] weights and no activation. The narrowing of the
  operands to a 16-bit format before each product is the identity on the extended reals, and both products go into the
  zero accumulator, so each is the plain sum over the contracted axis.
-/
import proofs.«137583_j84146999263864_1_alg».proof.Proof.Gen.KernelIdeal.Skeleton
import proofs.«137583_j84146999263864_1_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Idealize.ShloMosaic Idealize.ShloMosaic.ValueIdx Cert.KernelIdeal Cert.KernelIdeal.Gen

/-- The first kernel's products contract the left operand's columns with the right operand's rows. -/
theorem dot1_plain : dot_S5000x128_S128x128_S5000x128_1_0_0_1_n_n = DotDims.plain 5000 128 128 := rfl

/-- So do the second kernel's. -/
theorem dot2_plain : dot_S5000x128_S128x40_S5000x40_1_0_0_1_n_n = DotDims.plain 5000 128 40 := rfl

/-- Entry (p, q) of the tile the second kernel stores. -/
theorem pay2_apply (x0 x1 : Vec Ideal S5000x128 .f32) (x2 x3 : Vec Ideal S128x40 .f32) (x4 : Vec Ideal S1x40 .f32)
    (p : Fin 5000) (q : Fin 40) :
    k1_pay1 (F := Ideal) x0 x1 x2 x3 x4 (ix2 p q)
      = (∑ k : Fin 128, x0 (ix2 p k) * x2 (ix2 k q)) + (∑ k : Fin 128, x1 (ix2 p k) * x3 (ix2 k q)) + x4 (ix2 0 q) := by
  unfold k1_pay1
  simp only [shapeCast_self, dot2_plain]
  show FloatOps.matmul (F := Ideal) (DotDims.plain 5000 128 40) none (truncf (F := Ideal) .bf16 x0 bitsLt_bf16_f32) (truncf (F := Ideal) .bf16 x2 bitsLt_bf16_f32)
        (constant (F := Ideal) ⟨2, ![5000, 40]⟩ .f32 0x00000000#32) (ix2 p q)
      + FloatOps.matmul (F := Ideal) (DotDims.plain 5000 128 40) none (truncf (F := Ideal) .bf16 x1 bitsLt_bf16_f32) (truncf (F := Ideal) .bf16 x3 bitsLt_bf16_f32)
        (constant (F := Ideal) ⟨2, ![5000, 40]⟩ .f32 0x00000000#32) (ix2 p q)
      + broadcastTo S5000x40 x4 broadcasts_S1x40_S5000x40 (ix2 p q) = _
  rw [Cert.PlainMatmul.apply, Cert.PlainMatmul.apply, broadcastTo_1b_ab_apply]
  rfl

/-- Entry (p, q) of the tile the first kernel stores. -/
theorem pay1_apply (x0 x1 : Vec Ideal S5000x128 .f32) (x2 x3 : Vec Ideal S128x128 .f32) (x4 x5 x6 : Vec Ideal S1x128 .f32)
    (p : Fin 5000) (q : Fin 128) :
    k0_pay1 (F := Ideal) x0 x1 x2 x3 x4 x5 x6 (ix2 p q)
      = max ((∑ k : Fin 128, x0 (ix2 p k) * x2 (ix2 k q)) + (∑ k : Fin 128, x1 (ix2 p k) * x3 (ix2 k q)) + x4 (ix2 0 q)) 0
          * x5 (ix2 0 q) + x6 (ix2 0 q) := by
  unfold k0_pay1
  simp only [shapeCast_self, dot1_plain]
  show max (FloatOps.matmul (F := Ideal) (DotDims.plain 5000 128 128) none (truncf (F := Ideal) .bf16 x0 bitsLt_bf16_f32) (truncf (F := Ideal) .bf16 x2 bitsLt_bf16_f32)
          (constant (F := Ideal) ⟨2, ![5000, 128]⟩ .f32 0x00000000#32) (ix2 p q)
        + FloatOps.matmul (F := Ideal) (DotDims.plain 5000 128 128) none (truncf (F := Ideal) .bf16 x1 bitsLt_bf16_f32) (truncf (F := Ideal) .bf16 x3 bitsLt_bf16_f32)
          (constant (F := Ideal) ⟨2, ![5000, 128]⟩ .f32 0x00000000#32) (ix2 p q)
        + broadcastTo S5000x128 x4 broadcasts_S1x128_S5000x128 (ix2 p q))
        (Ideal.ofBits .f32 0x00000000#32)
      * broadcastTo S5000x128 x5 broadcasts_S1x128_S5000x128 (ix2 p q)
      + broadcastTo S5000x128 x6 broadcasts_S1x128_S5000x128 (ix2 p q) = _
  rw [Cert.PlainMatmul.apply, Cert.PlainMatmul.apply, broadcastTo_1b_ab_apply, broadcastTo_1b_ab_apply, broadcastTo_1b_ab_apply,
    Ideal.ofBits_zero_f32]
  rfl

end Cert.KernelIdeal.Payloads

end
-- ==== Proof.BlocksLayer1.lean ====
/-
  The first dense kernel's output array, as one function of the arrays its pallas_call finds.

  The call walks ten tiles of 5000 nodes. At tile t it stages rows 5000 t … 5000 t + 4999 of the aggregated features A
  and of the node features X, the whole [128, 128] weight matrices Wl and Wr and the [1, 128] rows b (bias), s (batch-norm
  scale) and sh (batch-norm shift), and writes back the same rows of the hidden array. An entry of a matrix product reads
  one row of the left operand only, so what tile t writes at its row p is the whole-array entry at row 5000 t + p:

      hid (R, q) = max (sum_k A (R, k) * Wl (k, q) + sum_k X (R, k) * Wr (k, q) + b (0, q)) 0 * s (0, q) + sh (0, q).

  The ten tiles cover the 50000 rows (row R lies in tile R / 5000), so after the call the array holds hid everywhere.
-/
import proofs.«137583_j84146999263864_1_alg».proof.Proof.FrameKernelIdeal
import proofs.«137583_j84146999263864_1_alg».proof.Proof.Payloads

set_option maxRecDepth 16384

noncomputable section

namespace Cert.KernelIdeal.Layer1

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The first layer with its activation and batch norm on whole arrays, entry by entry. -/
def hid (A X : S50000x128.Idx → EReal) (Wl Wr : S128x128.Idx → EReal) (b s sh : S1x128.Idx → EReal) : S50000x128.Idx → EReal :=
  fun i => max ((∑ k : Fin 128, A (ix2 (i 0) k) * Wl (ix2 k (i 1))) + (∑ k : Fin 128, X (ix2 (i 0) k) * Wr (ix2 k (i 1))) + b (ix2 0 (i 1))) 0
    * s (ix2 0 (i 1)) + sh (ix2 0 (i 1))

theorem hz : (![0, 0] : Fin 2 → Nat) = fun _ => 0 := funext fun a => by fin_cases a <;> rfl

/-- The printed index maps of the row-tiled windows over the ten tiles: block (t, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_7.index t (0 : Fin 2) = t.val ∧ win0_7.index t (1 : Fin 2) = 0 :=
  (by decide +kernel : ∀ t : Fin grid0.N, _)

/-- The resident windows sit at block (0, 0) at every tile. -/
theorem idx_res : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Tile t's block of the aggregated features: row p of the block is row 5000 t + p of the array. -/
theorem blk0_apply (c : Dev nD) (t : Fin cfg0.N) (p : Fin 5000) (k : Fin 128) (R : Fin 50000) (hR : R.val = 5000 * t.val + p.val) :
    (iblk0 V c 0 t : Vec Ideal S5000x128 .f32) (ix2 p k) = (V c main_v24 : S50000x128.Idx → EReal) (ix2 R k) := by
  have e0 : win0_0.index t (0 : Fin 2) = t.val := (idx_facts t).1
  have e1 : win0_0.index t (1 : Fin 2) = 0 := (idx_facts t).2.1
  unfold iblk0
  rw [View.read_apply]
  show (V c main_v24 : S50000x128.Idx → EReal) _ = _
  congr 1
  funext a
  apply Fin.ext
  match a with
  | ⟨0, _⟩ => show win0_0.index t (0 : Fin 2) * 5000 + 1 * p.val = R.val; rw [e0, hR]; omega
  | ⟨1, _⟩ => show win0_0.index t (1 : Fin 2) * 128 + 1 * k.val = k.val; rw [e1]; omega

/-- Tile t's block of the node features. -/
theorem blk1_apply (c : Dev nD) (t : Fin cfg0.N) (p : Fin 5000) (k : Fin 128) (R : Fin 50000) (hR : R.val = 5000 * t.val + p.val) :
    (iblk0 V c 1 t : Vec Ideal S5000x128 .f32) (ix2 p k) = (V c main_arg0 : S50000x128.Idx → EReal) (ix2 R k) := by
  have e0 : win0_1.index t (0 : Fin 2) = t.val := (idx_facts t).2.2.1
  have e1 : win0_1.index t (1 : Fin 2) = 0 := (idx_facts t).2.2.2.1
  unfold iblk0
  rw [View.read_apply]
  show (V c main_arg0 : S50000x128.Idx → EReal) _ = _
  congr 1
  funext a
  apply Fin.ext
  match a with
  | ⟨0, _⟩ => show win0_1.index t (0 : Fin 2) * 5000 + 1 * p.val = R.val; rw [e0, hR]; omega
  | ⟨1, _⟩ => show win0_1.index t (1 : Fin 2) * 128 + 1 * k.val = k.val; rw [e1]; omega

/-- The resident left weight matrix: its one block is the array. -/
theorem blk2_apply (c : Dev nD) (t : Fin cfg0.N) (k : Fin 128) (q : Fin 128) :
    (iblk0 V c 2 t : Vec Ideal S128x128 .f32) (ix2 k q) = (V c main_v31 : S128x128.Idx → EReal) (ix2 k q) := by
  have e0 : win0_2.index t (0 : Fin 2) = 0 := (idx_res t).1
  have e1 : win0_2.index t (1 : Fin 2) = 0 := (idx_res t).2.1
  unfold iblk0
  rw [View.read_apply]
  show (V c main_v31 : S128x128.Idx → EReal) _ = _
  congr 1
  funext a
  apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The resident right weight matrix. -/
theorem blk3_apply (c : Dev nD) (t : Fin cfg0.N) (k : Fin 128) (q : Fin 128) :
    (iblk0 V c 3 t : Vec Ideal S128x128 .f32) (ix2 k q) = (V c main_v32 : S128x128.Idx → EReal) (ix2 k q) := by
  have e0 : win0_3.index t (0 : Fin 2) = 0 := (idx_res t).2.2.1
  have e1 : win0_3.index t (1 : Fin 2) = 0 := (idx_res t).2.2.2.1
  unfold iblk0
  rw [View.read_apply]
  show (V c main_v32 : S128x128.Idx → EReal) _ = _
  congr 1
  funext a
  apply Fin.ext
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The resident bias row. -/
theorem blk4_apply (c : Dev nD) (t : Fin cfg0.N) (q : Fin 128) :
    (iblk0 V c 4 t : Vec Ideal S1x128 .f32) (ix2 0 q) = (V c main_v33 : S1x128.Idx → EReal) (ix2 0 q) := by
  have e0 : win0_4.index t (0 : Fin 2) = 0 := (idx_res t).2.2.2.2.1
  have e1 : win0_4.index t (1 : Fin 2) = 0 := (idx_res t).2.2.2.2.2.1
  unfold iblk0
  rw [View.read_apply]
  show (V c main_v33 : S1x128.Idx → EReal) _ = _
  congr 1
  funext a
  apply Fin.ext
  match a with
  | ⟨0, _⟩ => show win0_4.index t (0 : Fin 2) * 1 + 1 * 0 = 0; rw [e0]
  | ⟨1, _⟩ => show win0_4.index t (1 : Fin 2) * 128 + 1 * q.val = q.val; rw [e1]; omega

/-- The resident scale row. -/
theorem blk5_apply (c : Dev nD) (t : Fin cfg0.N) (q : Fin 128) :
    (iblk0 V c 5 t : Vec Ideal S1x128 .f32) (ix2 0 q) = (V c main_v34 : S1x128.Idx → EReal) (ix2 0 q) := by
  have e0 : win0_5.index t (0 : Fin 2) = 0 := (idx_res t).2.2.2.2.2.2.1
  have e1 : win0_5.index t (1 : Fin 2) = 0 := (idx_res t).2.2.2.2.2.2.2.1
  unfold iblk0
  rw [View.read_apply]
  show (V c main_v34 : S1x128.Idx → EReal) _ = _
  congr 1
  funext a
  apply Fin.ext
  match a with
  | ⟨0, _⟩ => show win0_5.index t (0 : Fin 2) * 1 + 1 * 0 = 0; rw [e0]
  | ⟨1, _⟩ => show win0_5.index t (1 : Fin 2) * 128 + 1 * q.val = q.val; rw [e1]; omega

/-- The resident shift row. -/
theorem blk6_apply (c : Dev nD) (t : Fin cfg0.N) (q : Fin 128) :
    (iblk0 V c 6 t : Vec Ideal S1x128 .f32) (ix2 0 q) = (V c main_v35 : S1x128.Idx → EReal) (ix2 0 q) := by
  have e0 : win0_6.index t (0 : Fin 2) = 0 := (idx_res t).2.2.2.2.2.2.2.2.1
  have e1 : win0_6.index t (1 : Fin 2) = 0 := (idx_res t).2.2.2.2.2.2.2.2.2
  unfold iblk0
  rw [View.read_apply]
  show (V c main_v35 : S1x128.Idx → EReal) _ = _
  congr 1
  funext a
  apply Fin.ext
  match a with
  | ⟨0, _⟩ => show win0_6.index t (0 : Fin 2) * 1 + 1 * 0 = 0; rw [e0]
  | ⟨1, _⟩ => show win0_6.index t (1 : Fin 2) * 128 + 1 * q.val = q.val; rw [e1]; omega

/-- What tile t writes back is block t of the whole-array function. -/
theorem flushed_eq (c : Dev nD) (t : Fin cfg0.N) :
    (dat0 V c).flushed 7 t = ((cfg0.win 7).blk t).view.read (Elt Ideal)
      (hid (V c main_v24) (V c main_arg0) (V c main_v31) (V c main_v32) (V c main_v33) (V c main_v34) (V c main_v35)) := by
  show (cfg0.win 7).cut (grid0.coords t) ((dat0 V c).after 7 t) = _
  rw [after0_7]
  unfold out0_7
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  obtain ⟨-, -, -, -, e0, e1⟩ := idx_facts t
  rw [View.read_apply]
  show k0_pay1 (F := Ideal) (iblk0 V c 0 t) (iblk0 V c 1 t) (iblk0 V c 2 t) (iblk0 V c 3 t) (iblk0 V c 4 t) (iblk0 V c 5 t) (iblk0 V c 6 t) (ix2 p q) = _
  refine (Payloads.pay1_apply (iblk0 V c 0 t) (iblk0 V c 1 t) (iblk0 V c 2 t) (iblk0 V c 3 t) (iblk0 V c 4 t) (iblk0 V c 5 t) (iblk0 V c 6 t) p q).trans ?_
  -- entry (p, q) of tile t's output block sits at row 5000 t + p, column q of the array
  have hR : ((((cfg0.win 7).blk t).view.emb (ix2 p q)) 0).val = 5000 * t.val + p.val := by
    show win0_7.index t (0 : Fin 2) * 5000 + 1 * p.val = _
    rw [e0]; omega
  have hQ : (((cfg0.win 7).blk t).view.emb (ix2 p q)) 1 = q := Fin.ext (by
    show win0_7.index t (1 : Fin 2) * 128 + 1 * q.val = q.val
    rw [e1]; omega)
  simp only [hid]
  rw [hQ]
  refine congrArg₂ (· + ·) (congrArg₂ (· * ·) (congrArg (fun z => max z 0)
    (congrArg₂ (· + ·) (congrArg₂ (· + ·) (Finset.sum_congr rfl fun k _ => ?_) (Finset.sum_congr rfl fun k _ => ?_)) ?_)) ?_) ?_
  · rw [blk0_apply V c t p k _ hR, blk2_apply V c t k q]
  · rw [blk1_apply V c t p k _ hR, blk3_apply V c t k q]
  · exact blk4_apply V c t q
  · exact blk5_apply V c t q
  · exact blk6_apply V c t q

/-- An index of the hidden array lies in tile t's block iff its row lies in rows 5000 t … 5000 t + 4999. -/
theorem mem_blk (t : Fin cfg0.N) (i : S50000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v36).slice (win0_7.rect t)).set ↔ _
  rw [View.set_slice_whole, Rect.mem_set_unit]
  exact Iff.rfl

/-- Every block index along the rows is some tile's. -/
theorem idx_onto : ∀ (q0 : Fin 10), ∃ t : Fin cfg0.N, win0_7.index t = ![q0.val, 0] :=
  (by decide +kernel : ∀ (q0 : Fin 10), ∃ t : Fin grid0.N, win0_7.index t = ![q0.val, 0])

/-- Every tile writes its block back. -/
theorem flush_all : ∀ t : Fin cfg0.N, (cfg0.win 7).flush t = true :=
  (by decide +kernel : ∀ t : Fin grid0.N, _)

/-- The ten tiles cover the array: row R lies in tile R / 5000. -/
theorem cover (i : S50000x128.Idx) : ∃ t : Fin cfg0.N, (cfg0.win 7).flush t = true ∧ i ∈ ((cfg0.win 7).blk t).view.set := by
  have hi0 : (i 0).val < 50000 := (i 0).isLt
  have hi1 : (i 1).val < 128 := (i 1).isLt
  obtain ⟨t, ht⟩ := idx_onto ⟨(i 0).val / 5000, by omega⟩
  have q0 : win0_7.index t (0 : Fin 2) = (i 0).val / 5000 := congrFun ht 0
  have q1 : win0_7.index t (1 : Fin 2) = 0 := congrFun ht 1
  refine ⟨t, flush_all t, ?_⟩
  rw [mem_blk]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 128 ≤ (i 1).val ∧ (i 1).val < win0_7.index t (1 : Fin 2) * 128 + 128; omega

/-- After the call the hidden array holds the whole-array function of the arrays the call found. -/
theorem final (c : Dev nD) :
    (dat0 V c).arrAt 7 cfg0.N = hid (V c main_v24) (V c main_arg0) (V c main_v31) (V c main_v32) (V c main_v33) (V c main_v34) (V c main_v35) :=
  (dat0 V c).arrAt_eq_of_cover 7 _ (fun t _ => flushed_eq V c t) cover

end Cert.KernelIdeal.Layer1

end
-- ==== Proof.BlocksLayer2.lean ====
/-
  The second dense kernel's output array, as one function of the arrays its pallas_call finds.

  The call walks ten tiles of 5000 nodes. At tile t it stages rows 5000 t … 5000 t + 4999 of the aggregated features A
  and of the hidden features H, the whole [128, 40] weight matrices Wl and Wr and the [1, 40] bias row b, and writes back
  rows 5000 t … 5000 t + 4999 of the output. An entry of a matrix product reads one row of the left operand only, so what
  tile t writes at its row p is the whole-array entry at row 5000 t + p:

      out (R, q) = sum_k A (R, k) * Wl (k, q) + sum_k H (R, k) * Wr (k, q) + b (0, q).

  The ten tiles cover the 50000 rows (row R lies in tile R / 5000), so after the call the array holds out everywhere.
-/
import proofs.«137583_j84146999263864_1_alg».proof.Proof.FrameKernelIdeal
import proofs.«137583_j84146999263864_1_alg».proof.Proof.Payloads

set_option maxRecDepth 16384

noncomputable section

namespace Cert.KernelIdeal.Layer2

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The second layer on whole arrays, entry by entry. -/
def out (A H : S50000x128.Idx → EReal) (Wl Wr : S128x40.Idx → EReal) (b : S1x40.Idx → EReal) : S50000x40.Idx → EReal :=
  fun i => (∑ k : Fin 128, A (ix2 (i 0) k) * Wl (ix2 k (i 1))) + (∑ k : Fin 128, H (ix2 (i 0) k) * Wr (ix2 k (i 1))) + b (ix2 0 (i 1))

theorem hz : (![0, 0] : Fin 2 → Nat) = fun _ => 0 := funext fun a => by fin_cases a <;> rfl

/-- The printed index maps over the ten tiles: the row-tiled windows sit at block (t, 0), the resident ones at (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Tile t's block of the aggregated features: row p of the block is row 5000 t + p of the array. -/
theorem blk0_apply (c : Dev nD) (t : Fin cfg1.N) (p : Fin 5000) (k : Fin 128) (R : Fin 50000) (hR : R.val = 5000 * t.val + p.val) :
    (iblk1 V c 0 t : Vec Ideal S5000x128 .f32) (ix2 p k) = (V c main_v49 : S50000x128.Idx → EReal) (ix2 R k) := by
  obtain ⟨e0, e1, -⟩ := idx_facts t
  unfold iblk1
  rw [View.read_apply]
  show (V c main_v49 : S50000x128.Idx → EReal) _ = _
  congr 1
  funext a
  apply Fin.ext
  match a with
  | ⟨0, _⟩ => show win1_0.index t (0 : Fin 2) * 5000 + 1 * p.val = R.val; rw [e0, hR]; omega
  | ⟨1, _⟩ => show win1_0.index t (1 : Fin 2) * 128 + 1 * k.val = k.val; rw [e1]; omega

/-- Tile t's block of the hidden features. -/
theorem blk1_apply (c : Dev nD) (t : Fin cfg1.N) (p : Fin 5000) (k : Fin 128) (R : Fin 50000) (hR : R.val = 5000 * t.val + p.val) :
    (iblk1 V c 1 t : Vec Ideal S5000x128 .f32) (ix2 p k) = (V c main_v36 : S50000x128.Idx → EReal) (ix2 R k) := by
  obtain ⟨-, -, e0, e1, -⟩ := idx_facts t
  unfold iblk1
  rw [View.read_apply]
  show (V c main_v36 : S50000x128.Idx → EReal) _ = _
  congr 1
  funext a
  apply Fin.ext
  match a with
  | ⟨0, _⟩ => show win1_1.index t (0 : Fin 2) * 5000 + 1 * p.val = R.val; rw [e0, hR]; omega
  | ⟨1, _⟩ => show win1_1.index t (1 : Fin 2) * 128 + 1 * k.val = k.val; rw [e1]; omega

/-- The resident left weight matrix: its one block is the array. -/
theorem blk2_apply (c : Dev nD) (t : Fin cfg1.N) (k : Fin 128) (q : Fin 40) :
    (iblk1 V c 2 t : Vec Ideal S128x40 .f32) (ix2 k q) = (V c main_v50 : S128x40.Idx → EReal) (ix2 k q) := by
  obtain ⟨-, -, -, -, e0, e1, -⟩ := idx_facts t
  unfold iblk1
  rw [View.read_apply]
  show (V c main_v50 : S128x40.Idx → EReal) _ = _
  congr 1
  funext a
  apply Fin.ext
  match a with
  | ⟨0, _⟩ => show win1_2.index t (0 : Fin 2) * 128 + 1 * k.val = k.val; rw [e0]; omega
  | ⟨1, _⟩ => show win1_2.index t (1 : Fin 2) * 40 + 1 * q.val = q.val; rw [e1]; omega

/-- The resident right weight matrix. -/
theorem blk3_apply (c : Dev nD) (t : Fin cfg1.N) (k : Fin 128) (q : Fin 40) :
    (iblk1 V c 3 t : Vec Ideal S128x40 .f32) (ix2 k q) = (V c main_v51 : S128x40.Idx → EReal) (ix2 k q) := by
  obtain ⟨-, -, -, -, -, -, e0, e1, -⟩ := idx_facts t
  unfold iblk1
  rw [View.read_apply]
  show (V c main_v51 : S128x40.Idx → EReal) _ = _
  congr 1
  funext a
  apply Fin.ext
  match a with
  | ⟨0, _⟩ => show win1_3.index t (0 : Fin 2) * 128 + 1 * k.val = k.val; rw [e0]; omega
  | ⟨1, _⟩ => show win1_3.index t (1 : Fin 2) * 40 + 1 * q.val = q.val; rw [e1]; omega

/-- The resident bias row. -/
theorem blk4_apply (c : Dev nD) (t : Fin cfg1.N) (q : Fin 40) :
    (iblk1 V c 4 t : Vec Ideal S1x40 .f32) (ix2 0 q) = (V c main_v52 : S1x40.Idx → EReal) (ix2 0 q) := by
  obtain ⟨-, -, -, -, -, -, -, -, e0, e1, -⟩ := idx_facts t
  unfold iblk1
  rw [View.read_apply]
  show (V c main_v52 : S1x40.Idx → EReal) _ = _
  congr 1
  funext a
  apply Fin.ext
  match a with
  | ⟨0, _⟩ => show win1_4.index t (0 : Fin 2) * 1 + 1 * 0 = 0; rw [e0]
  | ⟨1, _⟩ => show win1_4.index t (1 : Fin 2) * 40 + 1 * q.val = q.val; rw [e1]; omega

/-- What tile t writes back is block t of the whole-array function. -/
theorem flushed_eq (c : Dev nD) (t : Fin cfg1.N) :
    (dat1 V c).flushed 5 t = ((cfg1.win 5).blk t).view.read (Elt Ideal)
      (out (V c main_v49) (V c main_v36) (V c main_v50) (V c main_v51) (V c main_v52)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x40) hz, View.ld_unit_zero (S := S1x40) hz]
  funext j
  obtain ⟨p, q, rfl⟩ : ∃ (p : Fin 5000) (q : Fin 40), j = ix2 p q := ⟨j 0, j 1, eq_ix2 j⟩
  obtain ⟨-, -, -, -, -, -, -, -, -, -, e0, e1⟩ := idx_facts t
  rw [View.read_apply]
  show k1_pay1 (F := Ideal) (iblk1 V c 0 t) (iblk1 V c 1 t) (iblk1 V c 2 t) (iblk1 V c 3 t) (iblk1 V c 4 t) (ix2 p q) = _
  refine (Payloads.pay2_apply (iblk1 V c 0 t) (iblk1 V c 1 t) (iblk1 V c 2 t) (iblk1 V c 3 t) (iblk1 V c 4 t) p q).trans ?_
  -- entry (p, q) of tile t's output block sits at row 5000 t + p, column q of the array
  have hR : ((((cfg1.win 5).blk t).view.emb (ix2 p q)) 0).val = 5000 * t.val + p.val := by
    show win1_5.index t (0 : Fin 2) * 5000 + 1 * p.val = _
    rw [e0]; omega
  have hQ : (((cfg1.win 5).blk t).view.emb (ix2 p q)) 1 = q := Fin.ext (by
    show win1_5.index t (1 : Fin 2) * 40 + 1 * q.val = q.val
    rw [e1]; omega)
  simp only [out]
  rw [hQ]
  refine congrArg₂ (· + ·) (congrArg₂ (· + ·) (Finset.sum_congr rfl fun k _ => ?_) (Finset.sum_congr rfl fun k _ => ?_)) ?_
  · rw [blk0_apply V c t p k _ hR, blk2_apply V c t k q]
  · rw [blk1_apply V c t p k _ hR, blk3_apply V c t k q]
  · exact blk4_apply V c t q

/-- An index of the output array lies in tile t's block iff its row lies in rows 5000 t … 5000 t + 4999. -/
theorem mem_blk (t : Fin cfg1.N) (i : S50000x40.Idx) :
    i ∈ ((cfg1.win 5).blk t).view.set ↔ ∀ a : Fin 2, win1_5.index t a * S5000x40.size a ≤ (i a).val ∧ (i a).val < win1_5.index t a * S5000x40.size a + S5000x40.size a := by
  show i ∈ ((View.whole main_v53).slice (win1_5.rect t)).set ↔ _
  rw [View.set_slice_whole, Rect.mem_set_unit]
  exact Iff.rfl

/-- Every block index along the rows is some tile's. -/
theorem idx_onto : ∀ (q0 : Fin 10), ∃ t : Fin cfg1.N, win1_5.index t = ![q0.val, 0] :=
  (by decide +kernel : ∀ (q0 : Fin 10), ∃ t : Fin grid1.N, win1_5.index t = ![q0.val, 0])

/-- Every tile writes its block back. -/
theorem flush_all : ∀ t : Fin cfg1.N, (cfg1.win 5).flush t = true :=
  (by decide +kernel : ∀ t : Fin grid1.N, _)

/-- The ten tiles cover the array: row R lies in tile R / 5000. -/
theorem cover (i : S50000x40.Idx) : ∃ t : Fin cfg1.N, (cfg1.win 5).flush t = true ∧ i ∈ ((cfg1.win 5).blk t).view.set := by
  have hi0 : (i 0).val < 50000 := (i 0).isLt
  have hi1 : (i 1).val < 40 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush_all t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 40 ≤ (i 1).val ∧ (i 1).val < win1_5.index t (1 : Fin 2) * 40 + 40; omega

/-- After the call the output array holds the whole-array function of the arrays the call found. -/
theorem final (c : Dev nD) :
    (dat1 V c).arrAt 5 cfg1.N = out (V c main_v49) (V c main_v36) (V c main_v50) (V c main_v51) (V c main_v52) :=
  (dat1 V c).arrAt_eq_of_cover 5 _ (fun t _ => flushed_eq V c t) cover

end Cert.KernelIdeal.Layer2

end
-- ==== Proof.KerHost.lean ====
/-
  The host side of the kernel program: the array operations its main function applies around its two kernel calls,
  named as functions of the input arrays, and the contents each kernel call finds in its operand arrays written
  with those functions. The gather / scatter aggregation is kept as one opaque function `agg`.
-/
import proofs.«137583_j84146999263864_1_alg».proof.Proof.FrameKernelIdeal
import Idealize.ShloMosaic.Lib.StableHlo.Run
import Idealize.ShloMosaic.Lib.ValueIdx
import Idealize.ShloMosaic.Lib.ValueLayout

noncomputable section

namespace Cert.KerSide

open Idealize.ShloMosaic Idealize.ShloMosaic.TcCoe Idealize.SL.Sem
open Cert.KernelIdeal Cert.KernelIdeal.Gen

variable {F : FTy → Type} [FloatOps F]

/-! ## The host operations as functions of the arrays they read -/

/-- Row 0 of the edge list (the source node of every edge), as a vector. -/
def srcRow (e : IVec S2x800000 32) : IVec S800000 32 :=
  shapeCast S800000 (extractStridedSlice S1x800000 ![0, 0] e slices_S2x800000_S1x800000_0_0) shapeCasts_S1x800000_S800000

/-- Row 1 of the edge list (the target node of every edge), as a vector. -/
def dstRow (e : IVec S2x800000 32) : IVec S800000 32 :=
  shapeCast S800000 (extractStridedSlice S1x800000 ![1, 0] e slices_S2x800000_S1x800000_1_0) shapeCasts_S1x800000_S800000

/-- The target nodes as a column of scatter indices. -/
def dstCol (e : IVec S2x800000 32) : IVec S800000x1 32 :=
  broadcastInDim S800000x1 ![0] bcast_S800000_S800000x1_0 (dstRow e)

/-- The source nodes as a column of gather indices: a negative index counts from the end (50000 is added to it). -/
def srcCol (e : IVec S2x800000 32) : IVec S800000x1 32 :=
  broadcastInDim S800000x1 ![0] bcast_S800000_S800000x1_0
    (select (cmpi .slt (srcRow e) (broadcastInDim S800000 ![] bcast_S_S800000 (constantI S_ 32 0#32)))
      (addi (srcRow e) (broadcastInDim S800000 ![] bcast_S_S800000 (constantI S_ 32 50000#32)))
      (srcRow e))

/-- One over the in-degree of every node, the degree taken at least 1: 1 / max (Σ over edges into the node of 1) 1. -/
def invDeg (e : IVec S2x800000 32) : FVec F S50000 .f32 :=
  Host.divf (broadcastInDim S50000 ![] bcast_S_S50000 (constant S_ .f32 0x3F800000#32))
    (maximumf
      (Host.scatterAdd scatter_S50000_S800000x1_S800000_n_0_0_1
        (broadcastInDim S50000 ![] bcast_S_S50000 (constant S_ .f32 0x00000000#32))
        (dstCol e)
        (broadcastInDim S800000 ![] bcast_S_S800000 (constant S_ .f32 0x3F800000#32)))
      (broadcastInDim S50000 ![] bcast_S_S50000 (constant S_ .f32 0x3F800000#32)))

/-- Mean aggregation over incoming edges: row i is (Σ over edges (s → i) of h[s]) · invDeg i. -/
def agg (e : IVec S2x800000 32) (h : FVec F S50000x128 .f32) : FVec F S50000x128 .f32 :=
  mulf
    (Host.scatterAdd scatter_S50000x128_S800000x1_S800000x128_1_0_0_1
      (broadcastInDim S50000x128 ![] bcast_S_S50000x128 (constant S_ .f32 0x00000000#32))
      (dstCol e)
      (Host.gather gather_S50000x128_S800000x1_S800000x128_1_0_n_n_0_1_1128 h (srcCol e)))
    (broadcastInDim S50000x128 ![0, 1] bcast_S50000x1_S50000x128_0_1
      (broadcastInDim S50000x1 ![0] bcast_S50000_S50000x1_0 (invDeg e)))

/-- A 128 × 128 weight matrix transposed. -/
def wT128 (W : FVec F S128x128 .f32) : FVec F S128x128 .f32 :=
  transpose S128x128 [1, 0] W transposes_S128x128_S128x128_1_0

/-- A 40 × 128 weight matrix transposed. -/
def wT40 (W : FVec F S40x128 .f32) : FVec F S128x40 .f32 :=
  transpose S128x40 [1, 0] W transposes_S40x128_S128x40_1_0

/-- The batch-norm scale: gamma / sqrt (var + eps). -/
def scaleV (gamma var : FVec F S128 .f32) : FVec F S128 .f32 :=
  Host.divf gamma (Host.sqrt (addf var (broadcastInDim S128 ![] bcast_S_S128 (constant S_ .f32 0x3727C5AC#32))))

/-- The batch-norm shift: beta − mean · scale. -/
def shiftV (gamma beta mean var : FVec F S128 .f32) : FVec F S128 .f32 :=
  subf beta (mulf mean (scaleV gamma var))

/-- A vector of 128 entries as one row. -/
def row128 (v : FVec F S128 .f32) : FVec F S1x128 .f32 := shapeCast S1x128 v shapeCasts_S128_S1x128

/-- A vector of 40 entries as one row. -/
def row40 (v : FVec F S40 .f32) : FVec F S1x40 .f32 := shapeCast S1x40 v shapeCasts_S40_S1x40

variable (m : (ℓ : Loc nD τ sig) → Buf (Elt F) ℓ) (ρ : Dev nD → PrngReg)

/-! ## What the first kernel call finds (the contents after the first stretch of host operations) -/

/-- No host operation of the first stretch writes the node features. -/
theorem V1_arg0 (c : Dev nD) : V1 m ρ c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem W1_v1 (c : Dev nD) : (W1 m ρ c (Proc.devRef .tc main_v1) : IVec S800000 32) = srcRow (m ((c : Thread nD τ).loc main_arg1)) := by
  show StableHlo.after hostOps0 _ (Proc.devRef .tc main_v1) = _
  after_results
  rfl

theorem W1_v3 (c : Dev nD) : (W1 m ρ c (Proc.devRef .tc main_v3) : IVec S800000 32) = dstRow (m ((c : Thread nD τ).loc main_arg1)) := by
  show StableHlo.after hostOps0 _ (Proc.devRef .tc main_v3) = _
  after_results
  rfl

theorem W1_v11 (c : Dev nD) : (W1 m ρ c (Proc.devRef .tc main_v11) : FVec F S50000 .f32) = invDeg (m ((c : Thread nD τ).loc main_arg1)) := by
  show StableHlo.after hostOps0 _ (Proc.devRef .tc main_v11) = _
  after_results_simp
  rfl

theorem V1_v24 (c : Dev nD) : (V1 m ρ c main_v24 : FVec F S50000x128 .f32)
    = agg (m ((c : Thread nD τ).loc main_arg1)) (m ((c : Thread nD τ).loc main_arg0)) := by
  show StableHlo.after hostOps0 _ (Proc.devRef .tc main_v24) = _
  after_results_simp
  rfl

theorem V1_v31 (c : Dev nD) : (V1 m ρ c main_v31 : FVec F S128x128 .f32) = wT128 (m ((c : Thread nD τ).loc main_arg2)) := by
  show StableHlo.after hostOps0 _ (Proc.devRef .tc main_v31) = _
  after_results
  rfl

theorem V1_v32 (c : Dev nD) : (V1 m ρ c main_v32 : FVec F S128x128 .f32) = wT128 (m ((c : Thread nD τ).loc main_arg4)) := by
  show StableHlo.after hostOps0 _ (Proc.devRef .tc main_v32) = _
  after_results
  rfl

theorem V1_v33 (c : Dev nD) : (V1 m ρ c main_v33 : FVec F S1x128 .f32) = row128 (m ((c : Thread nD τ).loc main_arg3)) := by
  show StableHlo.after hostOps0 _ (Proc.devRef .tc main_v33) = _
  after_results
  rfl

theorem V1_v34 (c : Dev nD) : (V1 m ρ c main_v34 : FVec F S1x128 .f32)
    = row128 (scaleV (m ((c : Thread nD τ).loc main_arg5)) (m ((c : Thread nD τ).loc main_arg8))) := by
  show StableHlo.after hostOps0 _ (Proc.devRef .tc main_v34) = _
  after_results_simp
  rfl

theorem V1_v35 (c : Dev nD) : (V1 m ρ c main_v35 : FVec F S1x128 .f32)
    = row128 (shiftV (m ((c : Thread nD τ).loc main_arg5)) (m ((c : Thread nD τ).loc main_arg6))
        (m ((c : Thread nD τ).loc main_arg7)) (m ((c : Thread nD τ).loc main_arg8))) := by
  show StableHlo.after hostOps0 _ (Proc.devRef .tc main_v35) = _
  after_results_simp
  rfl

/-! ## What the second kernel call finds (the contents after the second stretch of host operations)

The second stretch starts from the contents the first kernel call leaves: its own arrays as the call leaves them,
every other array as the first stretch left it. -/

/-- At the first kernel call's exit a weight or bias argument of the second layer is as launched: it is none of the
    call's arrays and no host operation of the first stretch writes it. -/
theorem W2_arg9 (c : Dev nD) : W2 m ρ c (Proc.devRef .tc main_arg9) = m ((c : Thread nD τ).loc main_arg9) :=
  (W2_of_ne m ρ c main_arg9 (by decide)).trans (StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide))))
theorem W2_arg10 (c : Dev nD) : W2 m ρ c (Proc.devRef .tc main_arg10) = m ((c : Thread nD τ).loc main_arg10) :=
  (W2_of_ne m ρ c main_arg10 (by decide)).trans (StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide))))
theorem W2_arg11 (c : Dev nD) : W2 m ρ c (Proc.devRef .tc main_arg11) = m ((c : Thread nD τ).loc main_arg11) :=
  (W2_of_ne m ρ c main_arg11 (by decide)).trans (StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide))))

/-- No host operation of the second stretch writes the first kernel call's output. -/
theorem V3_v36 (c : Dev nD) : V3 m ρ c main_v36 = W2 m ρ c (Proc.devRef .tc main_v36) :=
  StableHlo.after_of_forall_not_mem (b := Proc.devRef .tc main_v36) _ _ (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- The second aggregation reads the edge rows and the inverse degrees the first stretch computed (the first kernel
    call writes none of them), and the first call's output as the features. -/
theorem V3_v49 (c : Dev nD) : (V3 m ρ c main_v49 : FVec F S50000x128 .f32)
    = agg (m ((c : Thread nD τ).loc main_arg1)) (W2 m ρ c (Proc.devRef .tc main_v36)) := by
  show StableHlo.after hostOps1 _ (Proc.devRef .tc main_v49) = _
  after_results_simp
  rw [W2_of_ne m ρ c main_v1 (by decide), W2_of_ne m ρ c main_v3 (by decide), W2_of_ne m ρ c main_v11 (by decide),
    W1_v1, W1_v3, W1_v11]
  rfl

theorem V3_v50 (c : Dev nD) : (V3 m ρ c main_v50 : FVec F S128x40 .f32) = wT40 (m ((c : Thread nD τ).loc main_arg9)) := by
  show StableHlo.after hostOps1 _ (Proc.devRef .tc main_v50) = _
  after_results_simp
  rw [W2_arg9]
  rfl

theorem V3_v51 (c : Dev nD) : (V3 m ρ c main_v51 : FVec F S128x40 .f32) = wT40 (m ((c : Thread nD τ).loc main_arg11)) := by
  show StableHlo.after hostOps1 _ (Proc.devRef .tc main_v51) = _
  after_results_simp
  rw [W2_arg11]
  rfl

theorem V3_v52 (c : Dev nD) : (V3 m ρ c main_v52 : FVec F S1x40 .f32) = row40 (m ((c : Thread nD τ).loc main_arg10)) := by
  show StableHlo.after hostOps1 _ (Proc.devRef .tc main_v52) = _
  after_results_simp
  rw [W2_arg10]
  rfl

/-! ## The small host functions read at an entry, at the extended reals -/

section AtIdeal
open Idealize.ShloMosaic.ValueIdx

/-- A vector of 128 entries as one row, read at (0, q). -/
theorem row128_apply (v : FVec Ideal S128 .f32) (q : Fin 128) : row128 v (ix2 0 q) = v (ix1 q) :=
  shapeCast_a_1a_apply v shapeCasts_S128_S1x128 0 q

/-- A vector of 40 entries as one row, read at (0, q). -/
theorem row40_apply (v : FVec Ideal S40 .f32) (q : Fin 40) : row40 v (ix2 0 q) = v (ix1 q) :=
  shapeCast_a_1a_apply v shapeCasts_S40_S1x40 0 q

/-- The batch-norm scale at an entry: gamma / sqrt (var + eps), eps the constant's value. -/
theorem scaleV_apply (gamma var : FVec Ideal S128 .f32) (q : Fin 128) :
    scaleV gamma var (ix1 q) = Ideal.div (gamma (ix1 q)) (Ideal.sqrt (var (ix1 q) + Ideal.ofBits .f32 0x3727C5AC#32)) := rfl

/-- The batch-norm shift at an entry: beta − mean · scale. -/
theorem shiftV_apply (gamma beta mean var : FVec Ideal S128 .f32) (q : Fin 128) :
    shiftV gamma beta mean var (ix1 q) = beta (ix1 q) - mean (ix1 q) * scaleV gamma var (ix1 q) := rfl

end AtIdeal

end Cert.KerSide

end
-- ==== Proof.KernelValue.lean ====
/-
  The kernel program's result as one function of its twelve arguments.

  The program is: host operations that build the mean aggregation A1 = agg (x) of the node features, the transposed
  weights and the batch-norm scale and shift rows; the first dense kernel, whose output array ends holding
  H = hid (A1, x, …) (ten tiles of 5000 rows covering it); host operations that aggregate H the same way,
  A2 = agg (H); and the second dense kernel, whose output array ends holding out (A2, H, …). Reading the buffer contents
  back through the four stretches gives the result as out (agg H, H, …) with H = hid (agg x, x, …): the aggregation stays
  an opaque function of the edge list and of the features it is applied to.
-/
import proofs.«137583_j84146999263864_1_alg».proof.Proof.RunKernelIdeal
import proofs.«137583_j84146999263864_1_alg».proof.Proof.BlocksLayer1
import proofs.«137583_j84146999263864_1_alg».proof.Proof.BlocksLayer2
import proofs.«137583_j84146999263864_1_alg».proof.Proof.KerHost

noncomputable section

namespace Cert.KerSide

open Idealize.ShloMosaic Idealize.ShloMosaic.TcCoe
open Idealize.SL.Sem
open Cert.KernelIdeal Cert.KernelIdeal.Gen

/-- The hidden features as the kernel program computes them: the first dense layer, rectified, scaled and shifted, on the
    aggregated and the own features. -/
def hidK (e : IVec S2x800000 32) (x : FVec Ideal S50000x128 .f32) (W1l : FVec Ideal S128x128 .f32) (b1 : FVec Ideal S128 .f32)
    (W1r : FVec Ideal S128x128 .f32) (gamma beta mean var : FVec Ideal S128 .f32) : S50000x128.Idx → EReal :=
  Layer1.hid (agg e x) x (wT128 W1l) (wT128 W1r) (row128 b1) (row128 (scaleV gamma var)) (row128 (shiftV gamma beta mean var))

/-- The result as the kernel program computes it from hidden features H: the second dense layer on the aggregated and
    the own hidden features. -/
def outK (e : IVec S2x800000 32) (H : FVec Ideal S50000x128 .f32) (W2l : FVec Ideal S40x128 .f32) (b2 : FVec Ideal S40 .f32)
    (W2r : FVec Ideal S40x128 .f32) : S50000x40.Idx → EReal :=
  Layer2.out (agg e H) H (wT40 W2l) (wT40 W2r) (row40 b2)

variable (m : (ℓ : Loc nD τ sig) → Buf (Elt Ideal) ℓ) (ρ : Dev nD → PrngReg)

/-- After the first dense kernel its output array holds the hidden features of the arguments. -/
theorem hidden_value (c : Dev nD) :
    W2 m ρ c (Proc.devRef .tc main_v36) = hidK (m ((c.tc : Thread nD τ).loc main_arg1)) (m ((c.tc : Thread nD τ).loc main_arg0))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) := by
  show W2 m ρ c (Proc.devRef .tc (Pipeline.arrRef spec0 7)) = _
  rw [W2_arr, Layer1.final (V1 m ρ) c, V1_v24, V1_arg0, V1_v31, V1_v32, V1_v33, V1_v34, V1_v35]
  rfl

/-- After the second dense kernel the result array holds the second layer of those hidden features. -/
theorem result_value (c : Dev nD) :
    W4 m ρ c (Proc.devRef .tc main_v53) = outK (m ((c.tc : Thread nD τ).loc main_arg1))
      (hidK (m ((c.tc : Thread nD τ).loc main_arg1)) (m ((c.tc : Thread nD τ).loc main_arg0))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)))
      (m ((c.tc : Thread nD τ).loc main_arg9)) (m ((c.tc : Thread nD τ).loc main_arg10)) (m ((c.tc : Thread nD τ).loc main_arg11)) := by
  show W4 m ρ c (Proc.devRef .tc (Pipeline.arrRef spec1 5)) = _
  rw [W4_arr, Layer2.final (V3 m ρ) c, V3_v49, V3_v36, V3_v50, V3_v51, V3_v52, hidden_value]
  rfl

end Cert.KerSide

end
-- ==== Proof.LibDenseRows.lean ====
/-
  Rows of a dense layer over the extended reals.

  A graph layer takes, for each node r, the mean A (r, ·) of its neighbours' feature rows and the node's own row X (r, ·),
  sends the first through a weight matrix Wl and the second through Wr, and adds a bias row b:

      pre (r, c) = sum over k of A (r, k) * Wl (k, c)  +  sum over k of X (r, k) * Wr (k, c)  +  b (c).

  Two spellings of that entry are read here at any extents: the host's, two whole products [M, K] x [K, N] and the bias
  broadcast through a [1, N] row; and a tile's, two products of a block of rows into the zero accumulator and the bias
  cast to a [1, N] row and broadcast down the tile. Each is the entry `pre` of its operands; a tile of rows o … o + T - 1
  of the arrays is then the same entry at row o + r, since an entry of a product reads one row of the left operand only.
-/
import Idealize.ShloMosaic.Lib.ValueIdx
import Idealize.ShloMosaic.Lib.ValueLayout
import Idealize.ShloMosaic.Lib.Pipeline.Value
import Idealize.ShloMosaic.PureOps.Ideal.Laws
import proofs.«137583_j84146999263864_1_alg».proof.Proof.LibPlainMatmul

noncomputable section

namespace Cert.DenseRows

open Idealize.ShloMosaic Idealize.ShloMosaic.ValueIdx

variable {M K N : ℕ}

/-- Entry (r, c) of the host's product [M, K] x [K, N] is the sum over k of a (r, k) * b (k, c). -/
theorem hostDot_apply (prec : Option ContractPrecision) {φ₁ φ₂ : FTy} (a : FVec Ideal ⟨2, ![M, K]⟩ φ₁) (b : FVec Ideal ⟨2, ![K, N]⟩ φ₂)
    (r : Fin M) (c : Fin N) :
    Host.dotGeneral (DotDims.plain M K N) prec a b (ix2 r c) = ∑ k : Fin K, a (ix2 r k) * b (ix2 k c) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact Cert.PlainMatmul.lhs_row _ _
      | ⟨1, _⟩ => exact (Cert.PlainMatmul.lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (Cert.PlainMatmul.rhs_row _ _).trans hk
      | ⟨1, _⟩ => exact Cert.PlainMatmul.rhs_col _ _)
  rw [el, er]

/-- The layer's entry (r, c) before its activation. -/
def pre (A X : (⟨2, ![M, K]⟩ : Shape).Idx → EReal) (Wl Wr : (⟨2, ![K, N]⟩ : Shape).Idx → EReal)
    (b : (⟨1, ![N]⟩ : Shape).Idx → EReal) (r : Fin M) (c : Fin N) : EReal :=
  (∑ k : Fin K, A (ix2 r k) * Wl (ix2 k c)) + (∑ k : Fin K, X (ix2 r k) * Wr (ix2 k c)) + b (ix1 c)

/-- A bias row broadcast first to [1, N] and then to [M, N] reads, at (r, c), the bias at c. -/
theorem hostBias_apply (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) := by
  rw [broadcastInDim_apply ![0, 1] h2 _ (ix2 r c) (ix2 (0 : Fin 1) c) (fun a => by
    match a with
    | ⟨0, _⟩ => rfl
    | ⟨1, _⟩ =>
      show c.val = if N = 1 then 0 else c.val
      split
      · have := c.isLt; omega
      · rfl)]
  exact broadcastInDim_apply ![1] h1 b (ix2 (0 : Fin 1) c) (ix1 c) (fun a => by
    match a with
    | ⟨0, _⟩ =>
      show c.val = if N = 1 then 0 else c.val
      split
      · have := c.isLt; omega
      · rfl)

/-- The host's spelling of the layer before its activation — two whole products added, then the bias broadcast through a
    [1, N] row — is `pre` at every entry. -/
theorem host_pre (prec : Option ContractPrecision) (A X : FVec Ideal ⟨2, ![M, K]⟩ .f32) (Wl Wr : FVec Ideal ⟨2, ![K, N]⟩ .f32)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    addf (addf (Host.dotGeneral (DotDims.plain M K N) prec A Wl) (Host.dotGeneral (DotDims.plain M K N) prec X Wr))
        (broadcastInDim ⟨2, ![M, N]⟩ ![0, 1] h2 (broadcastInDim ⟨2, ![1, N]⟩ ![1] h1 b)) (ix2 r c)
      = pre A X Wl Wr b r c := by
  show Host.dotGeneral (DotDims.plain M K N) prec A Wl (ix2 r c) + Host.dotGeneral (DotDims.plain M K N) prec X Wr (ix2 r c)
      + broadcastInDim ⟨2, ![M, N]⟩ ![0, 1] h2 (broadcastInDim ⟨2, ![1, N]⟩ ![1] h1 b) (ix2 r c) = _
  rw [hostDot_apply, hostDot_apply, hostBias_apply]
  rfl

/-- A tile's spelling — two products of [M, K] blocks into the zero accumulator added, then the bias cast to a [1, N] row and
    broadcast down the tile — is `pre` of the tile's operands at every entry, whatever the operands' float formats. -/
theorem tile_pre (prec : Option ContractPrecision) {φa φw : FTy} (A X : FVec Ideal ⟨2, ![M, K]⟩ φa) (Wl Wr : FVec Ideal ⟨2, ![K, N]⟩ φw)
    (b : FVec Ideal ⟨1, ![N]⟩ .f32)
    (h1 : (⟨1, ![N]⟩ : Shape).ShapeCasts ⟨2, ![1, N]⟩)
    (h2 : (⟨2, ![1, N]⟩ : Shape).Broadcasts ⟨2, ![M, N]⟩) (r : Fin M) (c : Fin N) :
    addf (addf (matmul (DotDims.plain M K N) prec A Wl (constant ⟨2, ![M, N]⟩ .f32 0x00000000#32))
          (matmul (DotDims.plain M K N) prec X Wr (constant ⟨2, ![M, N]⟩ .f32 0x00000000#32)))
        (broadcastTo ⟨2, ![M, N]⟩ (shapeCast ⟨2, ![1, N]⟩ b h1) h2) (ix2 r c)
      = pre A X Wl Wr b r c := by
  show FloatOps.matmul (DotDims.plain M K N) prec A Wl (constant ⟨2, ![M, N]⟩ .f32 0x00000000#32) (ix2 r c)
      + FloatOps.matmul (DotDims.plain M K N) prec X Wr (constant ⟨2, ![M, N]⟩ .f32 0x00000000#32) (ix2 r c)
      + broadcastTo ⟨2, ![M, N]⟩ (shapeCast ⟨2, ![1, N]⟩ b h1) h2 (ix2 r c) = _
  rw [Cert.PlainMatmul.apply, Cert.PlainMatmul.apply, broadcastTo_1b_ab_apply, shapeCast_a_1a_apply]
  rfl

/-- An entry of the layer reads one row of each left operand: if a tile's left operands are rows o, o + 1, … of the arrays'
    and its weights and bias are the arrays', the tile's entry (r, c) is the arrays' entry (o + r, c). -/
theorem pre_rows {T : ℕ} (o : ℕ) (A X : (⟨2, ![M, K]⟩ : Shape).Idx → EReal) (Wl Wr : (⟨2, ![K, N]⟩ : Shape).Idx → EReal)
    (b : (⟨1, ![N]⟩ : Shape).Idx → EReal)
    (At Xt : (⟨2, ![T, K]⟩ : Shape).Idx → EReal) (Wlt Wrt : (⟨2, ![K, N]⟩ : Shape).Idx → EReal) (bt : (⟨1, ![N]⟩ : Shape).Idx → EReal)
    (r : Fin T) (R : Fin M) (hR : R.val = o + r.val) (c : Fin N)
    (hA : ∀ k : Fin K, At (ix2 r k) = A (ix2 R k)) (hX : ∀ k : Fin K, Xt (ix2 r k) = X (ix2 R k))
    (hWl : ∀ k : Fin K, Wlt (ix2 k c) = Wl (ix2 k c)) (hWr : ∀ k : Fin K, Wrt (ix2 k c) = Wr (ix2 k c))
    (hb : bt (ix1 c) = b (ix1 c)) :
    pre At Xt Wlt Wrt bt r c = pre A X Wl Wr b R c := by
  unfold pre
  rw [hb]
  congr 2
  · exact Finset.sum_congr rfl fun k _ => by rw [hA k, hWl k]
  · exact Finset.sum_congr rfl fun k _ => by rw [hX k, hWr k]

end Cert.DenseRows

end
-- ==== Proof.Spec.lean ====
/-
  The scalar laws behind the two arrangements of a SAGE layer followed by an evaluation-mode batch norm.

  Write p for a node's pre-activation at one feature, h = max p 0 for its rectified value, and mu, sigma2, gamma, beta
  for the feature's running mean, running variance, scale and shift. With s = gamma / sqrt (sigma2 + eps):

      one arrangement computes   (h - mu) * s + beta,
      the other                  h * s + (beta - mu * s).

  Over the extended reals multiplication distributes over a difference only when the common factor and the
  subtracted term are real numbers; it does so for EVERY extended real h (at an infinite h both sides are the
  infinity of the sign of s, or beta when s = 0). So the law needs s, mu and beta real and nothing of h. The factor
  s is real as soon as gamma is real and sigma2 is a real number that is not negative: then sigma2 + eps > 0, its
  square root is a positive real, and the quotient by a nonzero real is a real. (At sigma2 + eps = 0 the quotient
  is an infinity and the law fails; that is why the variance is asked to be nonnegative.)

  The pre-activation itself is regrouped by commutativity and associativity alone: (a + x) + b = (a + b) + x.
-/
import Idealize.ShloMosaic.PureOps.Ideal
import Idealize.ShloMosaic.PureOps.Ideal.Laws
import Mathlib.Data.EReal.Operations
import Mathlib.Data.EReal.Inv
import Mathlib.Tactic.Ring
import Mathlib.Tactic.Positivity
import Mathlib.Tactic.NormNum

noncomputable section

namespace Cert.Sage

open Idealize.ShloMosaic

/-- The rectified pre-activation scaled and shifted: the arrangement with a precomputed shift. -/
def bnK (p s t : EReal) : EReal := max p 0 * s + t

/-- The rectified pre-activation centred, scaled and shifted: the textbook arrangement. -/
def bnR (p μ s β : EReal) : EReal := (max p 0 - μ) * s + β

/-- Distributing a real factor over a difference with a real subtrahend, for any extended real h. -/
theorem sub_mul_real (h : EReal) (μ s : ℝ) : (h - (μ : EReal)) * (s : EReal) = h * (s : EReal) - (μ : EReal) * (s : EReal) := by
  induction h using EReal.rec with
  | bot =>
    rcases lt_trichotomy s 0 with hs | rfl | hs
    · rw [EReal.bot_sub, EReal.bot_mul_coe_of_neg hs, ← EReal.coe_mul, EReal.top_sub_coe]
    · simp
    · rw [EReal.bot_sub, EReal.bot_mul_coe_of_pos hs, EReal.bot_sub]
  | coe a =>
    rw [← EReal.coe_sub, ← EReal.coe_mul, ← EReal.coe_mul, ← EReal.coe_mul, ← EReal.coe_sub]
    congr 1; ring
  | top =>
    rcases lt_trichotomy s 0 with hs | rfl | hs
    · rw [EReal.top_sub_coe, EReal.top_mul_coe_of_neg hs, EReal.bot_sub]
    · simp
    · rw [EReal.top_sub_coe, EReal.top_mul_coe_of_pos hs, ← EReal.coe_mul, EReal.top_sub_coe]

/-- The two arrangements agree when the factor, the mean and the shift are real numbers. -/
theorem bn_eq (p : EReal) (μ s β : ℝ) :
    bnK p (s : EReal) ((β : EReal) - (μ : EReal) * (s : EReal)) = bnR p (μ : EReal) (s : EReal) (β : EReal) := by
  unfold bnK bnR
  rw [sub_mul_real, ← EReal.coe_mul]
  generalize max p 0 * (s : EReal) = q
  induction q using EReal.rec with
  | bot => simp
  | coe a => rw [← EReal.coe_sub, ← EReal.coe_add, ← EReal.coe_sub, ← EReal.coe_add]; congr 1; ring
  | top => rw [← EReal.coe_sub, EReal.top_add_coe, EReal.top_sub_coe, EReal.top_add_coe]

/-- The same with the hypotheses as the programs give them: existence of real values, and the shift as computed. -/
theorem bn_eq_of_real (p μ s β t : EReal) (hμ : ∃ r : ℝ, μ = (r : EReal)) (hs : ∃ r : ℝ, s = (r : EReal))
    (hβ : ∃ r : ℝ, β = (r : EReal)) (ht : t = β - μ * s) : bnK p s t = bnR p μ s β := by
  obtain ⟨μ, rfl⟩ := hμ; obtain ⟨s, rfl⟩ := hs; obtain ⟨β, rfl⟩ := hβ
  subst ht
  exact bn_eq p μ s β

/-- The f32 word nearest to 1e-5 denotes a positive real number. -/
theorem eps_pos : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-- gamma / sqrt (sigma2 + eps) is a real number when gamma is real, sigma2 is a nonnegative real and eps a positive one. -/
theorem scale_real (g v e : EReal) (hg : ∃ r : ℝ, g = (r : EReal)) (hv : ∃ r : ℝ, 0 ≤ r ∧ v = (r : EReal))
    (he : ∃ r : ℝ, 0 < r ∧ e = (r : EReal)) : ∃ r : ℝ, Ideal.div g (Ideal.sqrt (v + e)) = (r : EReal) := by
  obtain ⟨g, rfl⟩ := hg; obtain ⟨v, hv0, rfl⟩ := hv; obtain ⟨e, he0, rfl⟩ := he
  have hpos : 0 < v + e := by positivity
  rw [← EReal.coe_add, Ideal.sqrt_coe, if_neg (not_lt.mpr hpos.le),
    Ideal.div_coe (Real.sqrt_ne_zero'.mpr hpos) , ← EReal.coe_mul]
  exact ⟨_, rfl⟩

/-- Regrouping the pre-activation: the bias may be added before or after the second product. -/
theorem pre_regroup (a x b : EReal) : a + x + b = a + b + x := add_right_comm a x b

end Cert.Sage

end
-- ==== Proof.RefValue.lean ====
/-
  The reference program read as two graph layers.

  The reference's result is one long term of its twelve arguments. Here the same term is cut at its natural joints:

    dstCol e, srcCol e   the edge list's destination row and its source row (negative indices wrapped) as columns;
    invDeg e             1 / max (number of edges arriving at a node, 1);
    agg e h              the mean over a node's incoming edges of the rows of h: rows gathered by source, added up by
                         destination, each node's sum scaled by invDeg e;
    hid                  the first layer: agg e x times W1l transposed, plus the bias, plus x times W1r transposed, then
                         rectified, centred by the running mean, scaled by gamma / sqrt (var + eps) and shifted by beta;
    out                  the second layer on H: agg e H times W2l transposed, plus the bias, plus H times W2r transposed.

  res_eq says the reference's term is out (e, hid (e, x, …), …), by reading the two texts side by side: nothing is computed.
  At the extended reals hid and out are then read at an entry (r, q): each is a sum over k of products plus a bias, and for
  hid the batch norm's scalar form of it. The aggregation stays a function: its gather and its sum by destination are never
  read at an index.
-/
import proofs.«137583_j84146999263864_1_alg».proof.Proof.Gen.ReferenceIdeal.Run
import proofs.«137583_j84146999263864_1_alg».proof.Proof.LibDenseRows
import proofs.«137583_j84146999263864_1_alg».proof.Proof.LibPlainMatmul
import proofs.«137583_j84146999263864_1_alg».proof.Proof.Spec
import Idealize.ShloMosaic.Lib.IdealHost

noncomputable section

namespace Cert.RefSide

open Cert.ReferenceIdeal Cert.ReferenceIdeal.Gen Idealize.ShloMosaic Idealize.ShloMosaic.TcCoe Idealize.SL.Sem Idealize.ShloMosaic.StableHlo
open Idealize.ShloMosaic.ValueIdx

section Generic

variable {F : FTy → Type} [FloatOps F]

/-- Row 1 of the edge list (the destinations) as an [800000, 1] column. -/
def dstCol (e : IVec S2x800000 32) : IVec S800000x1 32 :=
  broadcastInDim S800000x1 ![0] bcast_S800000_S800000x1_0 (shapeCast _ (extractStridedSlice S1x800000 ![1, 0] e slices_S2x800000_S1x800000_1_0) shapeCasts_S1x800000_S800000)

/-- Row 0 of the edge list (the sources), a negative index wrapped by adding 50000, as an [800000, 1] column. -/
def srcCol (e : IVec S2x800000 32) : IVec S800000x1 32 :=
  broadcastInDim S800000x1 ![0] bcast_S800000_S800000x1_0 (select (cmpi .slt (shapeCast _ (extractStridedSlice S1x800000 ![0, 0] e slices_S2x800000_S1x800000_0_0) shapeCasts_S1x800000_S800000) (broadcastInDim S800000 ![] bcast_S_S800000 (constantI S_ 32 0#32))) (addi (shapeCast _ (extractStridedSlice S1x800000 ![0, 0] e slices_S2x800000_S1x800000_0_0) shapeCasts_S1x800000_S800000) (broadcastInDim S800000 ![] bcast_S_S800000 (constantI S_ 32 50000#32))) (shapeCast _ (extractStridedSlice S1x800000 ![0, 0] e slices_S2x800000_S1x800000_0_0) shapeCasts_S1x800000_S800000))

/-- 1 / max (in-degree, 1): ones added up by destination, bounded below by one, inverted. -/
def invDeg (e : IVec S2x800000 32) : FVec F S50000 .f32 :=
  Host.divf (broadcastInDim S50000 ![] bcast_S_S50000 (constant S_ .f32 0x3F800000#32)) (maximumf (Host.scatterAdd scatter_S50000_S800000x1_S800000_n_0_0_1 (broadcastInDim S50000 ![] bcast_S_S50000 (constant S_ .f32 0x00000000#32)) (dstCol e) (broadcastInDim S800000 ![] bcast_S_S800000 (constant S_ .f32 0x3F800000#32))) (broadcastInDim S50000 ![] bcast_S_S50000 (constant S_ .f32 0x3F800000#32)))

/-- The mean of h's rows over each node's incoming edges: gathered by source, added up by destination into zeros, and each
    node's row scaled by the node's inverse degree. -/
def agg (e : IVec S2x800000 32) (h : FVec F S50000x128 .f32) : FVec F S50000x128 .f32 :=
  mulf (Host.scatterAdd scatter_S50000x128_S800000x1_S800000x128_1_0_0_1 (broadcastInDim S50000x128 ![] bcast_S_S50000x128 (constant S_ .f32 0x00000000#32)) (dstCol e) (Host.gather gather_S50000x128_S800000x1_S800000x128_1_0_n_n_0_1_1128 h (srcCol e))) (broadcastInDim S50000x128 ![0, 1] bcast_S50000x1_S50000x128_0_1 (broadcastInDim S50000x1 ![0] bcast_S50000_S50000x1_0 (invDeg e)))

/-- A [128, 128] weight transposed. -/
def wT128 (W : FVec F S128x128 .f32) : FVec F S128x128 .f32 :=
  transpose S128x128 [1, 0] W transposes_S128x128_S128x128_1_0

/-- A [40, 128] weight transposed to [128, 40]. -/
def wT40 (W : FVec F S40x128 .f32) : FVec F S128x40 .f32 :=
  transpose S128x40 [1, 0] W transposes_S40x128_S128x40_1_0

/-- The batch norm's factor gamma / sqrt (var + eps), feature by feature. -/
def scaleV (gamma var : FVec F S128 .f32) : FVec F S128 .f32 :=
  Host.divf gamma (Host.sqrt (addf var (broadcastInDim S128 ![] bcast_S_S128 (constant S_ .f32 0x3727C5AC#32))))

/-- The first layer with its rectifier and its evaluation-mode batch norm. -/
def hid (e : IVec S2x800000 32) (x : FVec F S50000x128 .f32) (W1l : FVec F S128x128 .f32) (b1 : FVec F S128 .f32)
    (W1r : FVec F S128x128 .f32) (gamma beta mean var : FVec F S128 .f32) : FVec F S50000x128 .f32 :=
  addf (mulf (subf (maximumf (addf (addf (Host.dotGeneral dot_S50000x128_S128x128_S50000x128_1_0_0_1_n_n none (agg e x) (wT128 W1l)) (broadcastInDim S50000x128 ![0, 1] bcast_S1x128_S50000x128_0_1 (broadcastInDim S1x128 ![1] bcast_S128_S1x128_1 b1))) (Host.dotGeneral dot_S50000x128_S128x128_S50000x128_1_0_0_1_n_n none x (wT128 W1r))) (broadcastInDim S50000x128 ![] bcast_S_S50000x128 (constant S_ .f32 0x00000000#32))) (broadcastInDim S50000x128 ![0, 1] bcast_S1x128_S50000x128_0_1 (broadcastInDim S1x128 ![1] bcast_S128_S1x128_1 mean))) (broadcastInDim S50000x128 ![0, 1] bcast_S1x128_S50000x128_0_1 (broadcastInDim S1x128 ![1] bcast_S128_S1x128_1 (scaleV gamma var)))) (broadcastInDim S50000x128 ![0, 1] bcast_S1x128_S50000x128_0_1 (broadcastInDim S1x128 ![1] bcast_S128_S1x128_1 beta))

/-- The second layer. -/
def out (e : IVec S2x800000 32) (H : FVec F S50000x128 .f32) (W2l : FVec F S40x128 .f32) (b2 : FVec F S40 .f32)
    (W2r : FVec F S40x128 .f32) : FVec F S50000x40 .f32 :=
  addf (addf (Host.dotGeneral dot_S50000x128_S128x40_S50000x40_1_0_0_1_n_n none (agg e H) (wT40 W2l)) (broadcastInDim S50000x40 ![0, 1] bcast_S1x40_S50000x40_0_1 (broadcastInDim S1x40 ![1] bcast_S40_S1x40_1 b2))) (Host.dotGeneral dot_S50000x128_S128x40_S50000x40_1_0_0_1_n_n none H (wT40 W2r))

/-- The reference's result is the second layer applied to the first layer's result: the two texts are the same term. -/
theorem res_eq (m : (ℓ : Loc nD τ sig) → Buf (Elt F) ℓ) (c : Dev nD) :
    Cert.ReferenceIdeal.Value.res_main_v68 (F := F) m c
      = out (m ((c.tc : Thread nD τ).loc main_arg1))
          (hid (m ((c.tc : Thread nD τ).loc main_arg1)) (m ((c.tc : Thread nD τ).loc main_arg0))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)))
          (m ((c.tc : Thread nD τ).loc main_arg9)) (m ((c.tc : Thread nD τ).loc main_arg10))
          (m ((c.tc : Thread nD τ).loc main_arg11)) := by
  unfold Cert.ReferenceIdeal.Value.res_main_v68 out hid agg invDeg srcCol dstCol wT128 wT40 scaleV
  rfl

end Generic

/-! ## At the extended reals, entry by entry -/

/-- Entry (r, q) of a [50000, 128] x [128, 128] product on the host. -/
theorem dot128_apply (a : FVec Ideal S50000x128 .f32) (b : FVec Ideal S128x128 .f32) (r : Fin 50000) (q : Fin 128) :
    Host.dotGeneral dot_S50000x128_S128x128_S50000x128_1_0_0_1_n_n none a b (ix2 r q) = ∑ k : Fin 128, a (ix2 r k) * b (ix2 k q) :=
  Cert.DenseRows.hostDot_apply (M := 50000) (K := 128) (N := 128) none a b r q

/-- Entry (r, q) of a [50000, 128] x [128, 40] product on the host. -/
theorem dot40_apply (a : FVec Ideal S50000x128 .f32) (b : FVec Ideal S128x40 .f32) (r : Fin 50000) (q : Fin 40) :
    Host.dotGeneral dot_S50000x128_S128x40_S50000x40_1_0_0_1_n_n none a b (ix2 r q) = ∑ k : Fin 128, a (ix2 r k) * b (ix2 k q) :=
  Cert.DenseRows.hostDot_apply (M := 50000) (K := 128) (N := 40) none a b r q

/-- A [128] row broadcast through [1, 128] to [50000, 128] reads, at (r, q), the row at q. -/
theorem row128_apply (v : FVec Ideal S128 .f32) (r : Fin 50000) (q : Fin 128) :
    broadcastInDim S50000x128 ![0, 1] bcast_S1x128_S50000x128_0_1 (broadcastInDim S1x128 ![1] bcast_S128_S1x128_1 v) (ix2 r q) = v (ix1 q) :=
  Cert.DenseRows.hostBias_apply (M := 50000) (N := 128) v bcast_S128_S1x128_1 bcast_S1x128_S50000x128_0_1 r q

/-- A [40] row broadcast through [1, 40] to [50000, 40] reads, at (r, q), the row at q. -/
theorem row40_apply (v : FVec Ideal S40 .f32) (r : Fin 50000) (q : Fin 40) :
    broadcastInDim S50000x40 ![0, 1] bcast_S1x40_S50000x40_0_1 (broadcastInDim S1x40 ![1] bcast_S40_S1x40_1 v) (ix2 r q) = v (ix1 q) :=
  Cert.DenseRows.hostBias_apply (M := 50000) (N := 40) v bcast_S40_S1x40_1 bcast_S1x40_S50000x40_0_1 r q

/-- The first layer at an entry: the batch norm of the entry's pre-activation. -/
theorem hid_apply (e : IVec S2x800000 32) (x : FVec Ideal S50000x128 .f32) (W1l : FVec Ideal S128x128 .f32) (b1 : FVec Ideal S128 .f32)
    (W1r : FVec Ideal S128x128 .f32) (gamma beta mean var : FVec Ideal S128 .f32) (r : Fin 50000) (q : Fin 128) :
    hid (F := Ideal) e x W1l b1 W1r gamma beta mean var (ix2 r q)
      = Cert.Sage.bnR ((∑ k : Fin 128, agg e x (ix2 r k) * wT128 W1l (ix2 k q)) + b1 (ix1 q)
            + (∑ k : Fin 128, x (ix2 r k) * wT128 W1r (ix2 k q)))
          (mean (ix1 q)) (scaleV gamma var (ix1 q)) (beta (ix1 q)) := by
  unfold hid Cert.Sage.bnR
  rw [addf_apply, mulf_apply, subf_apply, maximumf_apply, addf_apply, addf_apply, dot128_apply, dot128_apply,
    row128_apply, row128_apply, row128_apply, row128_apply, broadcastInDim_scalar_apply, constant_apply,
    Ideal.ofBits_zero_f32]

/-- The second layer at an entry. -/
theorem out_apply (e : IVec S2x800000 32) (H : FVec Ideal S50000x128 .f32) (W2l : FVec Ideal S40x128 .f32) (b2 : FVec Ideal S40 .f32)
    (W2r : FVec Ideal S40x128 .f32) (r : Fin 50000) (q : Fin 40) :
    out (F := Ideal) e H W2l b2 W2r (ix2 r q)
      = (∑ k : Fin 128, agg e H (ix2 r k) * wT40 W2l (ix2 k q)) + b2 (ix1 q) + (∑ k : Fin 128, H (ix2 r k) * wT40 W2r (ix2 k q)) := by
  unfold out
  rw [addf_apply, addf_apply, dot40_apply, dot40_apply, row40_apply]

end Cert.RefSide

end
-- ==== Proof.Bridge.lean ====
/-
  Why the kernel program and the reference compute the same array.

  Both are  out (agg H, H)  with  H = hidden (agg x, x) : the same mean aggregation agg of a feature array over the
  same edge list (the same host operations on both sides, never opened here), the same transposed weights, and two dense
  layers that differ only in how an entry is arranged.

  Second layer, entry (r, q):   reference  (sum_k A Wl + b) + sum_k H Wr,   kernel  (sum_k A Wl + sum_k H Wr) + b.
  Equal by commutativity and associativity of the sum, for all extended reals.

  First layer, entry (r, q), with p the pre-activation (regrouped the same way), s = gamma / sqrt (sigma2 + eps):
  reference  (max p 0 - mu) * s + beta,   kernel  max p 0 * s + (beta - mu * s).
  Equal when s, mu, beta are real numbers, whatever p is; they are real because gamma, mu, beta are finite and sigma2 is
  finite and not negative (the precondition).
-/
import proofs.«137583_j84146999263864_1_alg».proof.Proof.KernelValue
import proofs.«137583_j84146999263864_1_alg».proof.Proof.RefValue
import proofs.«137583_j84146999263864_1_alg».proof.Proof.Spec

noncomputable section

namespace Cert.Bridge

open Idealize.ShloMosaic Idealize.ShloMosaic.ValueIdx

/-! ## The two programs' records spell the same host operations -/

section Vocabulary

variable {F : FTy → Type} [FloatOps F]

theorem agg_eq (e : IVec Cert.KernelIdeal.S2x800000 32) (h : FVec F Cert.KernelIdeal.S50000x128 .f32) :
    Cert.RefSide.agg (F := F) e h = Cert.KerSide.agg e h := rfl

theorem wT128_eq (W : FVec F Cert.KernelIdeal.S128x128 .f32) : Cert.RefSide.wT128 (F := F) W = Cert.KerSide.wT128 W := rfl

theorem wT40_eq (W : FVec F Cert.KernelIdeal.S40x128 .f32) : Cert.RefSide.wT40 (F := F) W = Cert.KerSide.wT40 W := rfl

theorem scaleV_eq (g v : FVec F Cert.KernelIdeal.S128 .f32) : Cert.RefSide.scaleV (F := F) g v = Cert.KerSide.scaleV g v := rfl

end Vocabulary

/-! ## The values -/

open Cert.KernelIdeal in
/-- The hidden features agree, entry by entry. -/
theorem hidden_eq (e : IVec S2x800000 32) (x : FVec Ideal S50000x128 .f32) (W1l : FVec Ideal S128x128 .f32) (b1 : FVec Ideal S128 .f32)
    (W1r : FVec Ideal S128x128 .f32) (gamma beta mean var : FVec Ideal S128 .f32)
    (hγ : ∀ j, ∃ r : ℝ, gamma j = (r : EReal)) (hβ : ∀ j, ∃ r : ℝ, beta j = (r : EReal)) (hμ : ∀ j, ∃ r : ℝ, mean j = (r : EReal))
    (hσ : ∀ j, ∃ r : ℝ, 0 ≤ r ∧ var j = (r : EReal)) :
    Cert.RefSide.hid (F := Ideal) e x W1l b1 W1r gamma beta mean var = Cert.KerSide.hidK e x W1l b1 W1r gamma beta mean var := by
  funext i
  obtain ⟨r, q, rfl⟩ : ∃ (r : Fin 50000) (q : Fin 128), i = ix2 r q := ⟨i 0, i 1, eq_ix2 i⟩
  rw [Cert.RefSide.hid_apply, agg_eq, wT128_eq, wT128_eq, scaleV_eq]
  have h0 : (ix2 r q : S50000x128.Idx) 0 = r := rfl
  have h1 : (ix2 r q : S50000x128.Idx) 1 = q := rfl
  simp only [Cert.KerSide.hidK, Cert.KernelIdeal.Layer1.hid, h0, h1]
  rw [Cert.KerSide.row128_apply, Cert.KerSide.row128_apply, Cert.KerSide.row128_apply, Cert.KerSide.shiftV_apply,
    Cert.Sage.pre_regroup]
  refine (Cert.Sage.bn_eq_of_real _ _ _ _ _ (hμ _) ?_ (hβ _) rfl).symm
  rw [Cert.KerSide.scaleV_apply]
  exact Cert.Sage.scale_real _ _ _ (hγ _) (hσ _) Cert.Sage.eps_pos

open Cert.KernelIdeal in
/-- The results agree, entry by entry, for any hidden features. -/
theorem out_eq (e : IVec S2x800000 32) (H : FVec Ideal S50000x128 .f32) (W2l : FVec Ideal S40x128 .f32) (b2 : FVec Ideal S40 .f32)
    (W2r : FVec Ideal S40x128 .f32) :
    Cert.RefSide.out (F := Ideal) e H W2l b2 W2r = Cert.KerSide.outK e H W2l b2 W2r := by
  funext i
  obtain ⟨r, q, rfl⟩ : ∃ (r : Fin 50000) (q : Fin 40), i = ix2 r q := ⟨i 0, i 1, eq_ix2 i⟩
  rw [Cert.RefSide.out_apply, agg_eq, wT40_eq, wT40_eq]
  have h0 : (ix2 r q : S50000x40.Idx) 0 = r := rfl
  have h1 : (ix2 r q : S50000x40.Idx) 1 = q := rfl
  simp only [Cert.KerSide.outK, Cert.KernelIdeal.Layer2.out, h0, h1]
  rw [Cert.KerSide.row40_apply, Cert.Sage.pre_regroup]

open Cert.KernelIdeal in
/-- The reference's result is the kernel program's, as functions of the twelve arguments. -/
theorem value_eq (e : IVec S2x800000 32) (x : FVec Ideal S50000x128 .f32) (W1l : FVec Ideal S128x128 .f32) (b1 : FVec Ideal S128 .f32)
    (W1r : FVec Ideal S128x128 .f32) (gamma beta mean var : FVec Ideal S128 .f32) (W2l : FVec Ideal S40x128 .f32) (b2 : FVec Ideal S40 .f32)
    (W2r : FVec Ideal S40x128 .f32)
    (hγ : ∀ j, ∃ r : ℝ, gamma j = (r : EReal)) (hβ : ∀ j, ∃ r : ℝ, beta j = (r : EReal)) (hμ : ∀ j, ∃ r : ℝ, mean j = (r : EReal))
    (hσ : ∀ j, ∃ r : ℝ, 0 ≤ r ∧ var j = (r : EReal)) :
    Cert.RefSide.out (F := Ideal) e (Cert.RefSide.hid (F := Ideal) e x W1l b1 W1r gamma beta mean var) W2l b2 W2r
      = Cert.KerSide.outK e (Cert.KerSide.hidK e x W1l b1 W1r gamma beta mean var) W2l b2 W2r := by
  rw [hidden_eq e x W1l b1 W1r gamma beta mean var hγ hβ hμ hσ]
  exact out_eq e _ W2l b2 W2r

end Cert.Bridge

end
-- ==== Proof.lean ====
/-
  A two-layer GraphSAGE network with mean aggregation, a ReLU and an evaluation-mode batch norm between the layers:
  the Pallas program against its jnp reference, over the extended reals.

  Both programs compute, with agg the mean of the neighbours' rows over the edge list (a gather of source rows, a
  segment sum by destination, a division by the clipped in-degree; the same host operations on both sides),

      H   = bn (relu (agg x · W1lᵀ + x · W1rᵀ + b1)),        out = agg H · W2lᵀ + H · W2rᵀ + b2.

  The kernel program does each dense layer in a pallas_call over ten tiles of 5000 nodes and folds the batch norm into a
  scale s = gamma / sqrt (sigma2 + eps) and a shift beta - mu · s computed on the host; the reference adds the bias before the
  second product and applies (h - mu) · s + beta. The sums differ only by commutativity and associativity. The batch
  norm's two arrangements agree for every extended real h as soon as s, mu and beta are real numbers, which holds when
  gamma, mu, beta are finite and the running variance sigma2 is finite and not negative: the statement's precondition.
  (At sigma2 = -eps the scale is an infinity, the two arrangements differ, and so do the results.)

  The frames of the two kernel programs are the generated frame certificates; the reference's frame is its generated run
  with the result dropped; the idealization rewrote nothing, so "preserves" is trivial. For the value claim the kernel
  program's result array is read off its run: the last buffer contents at the result, which is the second dense layer of
  the arrays the second call found, themselves the host operations' terms of the first call's output array, which is the
  first dense layer of the arrays the first call found (each call's ten row tiles cover its output array).
-/
import proofs.«137583_j84146999263864_1_alg».proof.Defs
import proofs.«137583_j84146999263864_1_alg».proof.Proof.Gen.Kernel
import proofs.«137583_j84146999263864_1_alg».proof.Proof.FrameKernel
import proofs.«137583_j84146999263864_1_alg».proof.Proof.Gen.KernelIdeal
import proofs.«137583_j84146999263864_1_alg».proof.Proof.FrameKernelIdeal
import proofs.«137583_j84146999263864_1_alg».proof.Proof.RunKernelIdeal
import proofs.«137583_j84146999263864_1_alg».proof.Proof.Gen.ReferenceIdeal
import proofs.«137583_j84146999263864_1_alg».proof.Proof.Gen.ReferenceIdeal.Run
import proofs.«137583_j84146999263864_1_alg».proof.Proof.Gen.Pre_finite_inputs
import proofs.«137583_j84146999263864_1_alg».proof.Proof.PreFacts
import proofs.«137583_j84146999263864_1_alg».proof.Proof.KernelValue
import proofs.«137583_j84146999263864_1_alg».proof.Proof.RefValue
import proofs.«137583_j84146999263864_1_alg».proof.Proof.Bridge

noncomputable section

namespace Cert.Proof

open Idealize.ShloMosaic Idealize.ShloMosaic.TcCoe Idealize.SL.Sem

/-- The word-level kernel program terminates without fault and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, under the precondition, the two programs end with the same result array:
    the kernel program's function of the arguments. -/
theorem algebraic : Cert.algebraic_KernelIdeal_ReferenceIdeal := by
  intro m ρ m' ρ' hpre hagree
  refine ⟨fun c => Cert.KerSide.outK (m ((c.tc : Thread Cert.KernelIdeal.nD Cert.KernelIdeal.τ).loc Cert.KernelIdeal.main_arg1))
      (Cert.KerSide.hidK (m ((c.tc : Thread Cert.KernelIdeal.nD Cert.KernelIdeal.τ).loc Cert.KernelIdeal.main_arg1))
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8)))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KerSide.result_value m ρ c), (h c).2⟩) (Cert.KernelIdeal.Gen.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨hγ, hβ, hμ, hσ⟩ := Cert.PreFacts.decode _ _ _ _ _ _ _ _ _ _ _ _ (hpre c)
    obtain ⟨g0, g1, g2, g3, g4, g5, g6, g7, g8, g9, g10, g11⟩ := hagree c
    rw [Cert.RefSide.res_eq, g0, g1, g2, g3, g4, g5, g6, g7, g8, g9, g10, g11]
    exact Cert.Bridge.value_eq _ _ _ _ _ _ _ _ _ _ _ _ hγ hβ hμ hσ

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
